-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1 : Shape := ⟨1, ![1]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1 : S_.BroadcastsInDim S1 (![] : Fin 0 → Fin S1.rank)
  reducesTo_S1_S_d0 : S1.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg6 : FVec F S64 .f32) (main_arg7 : FVec F S1x128 .f32) (main_arg8 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : FVec F S1 .f32) (main_arg2 : IVec S800000 32) (main_arg3 : IVec S800000 32) (main_arg4 : FVec F S1 .f32) (main_arg5 : FVec F S64x128 .f32) (main_arg6 : FVec F S64 .f32) (main_arg7 : FVec F S1x128 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_v13 main_v16
-- ==== Kernel.lean ====
abbrev S50000x64 : Shape := ⟨2, ![50000, 64]⟩
abbrev S1 : Shape := ⟨1, ![1]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x64 : Shape := ⟨2, ![128, 64]⟩
abbrev S1x64 : Shape := ⟨2, ![1, 64]⟩
abbrev S1x1 : Shape := ⟨2, ![1, 1]⟩
abbrev S4000x128 : Shape := ⟨2, ![4000, 128]⟩
abbrev S4000x64 : Shape := ⟨2, ![4000, 64]⟩
abbrev S4000x1 : Shape := ⟨2, ![4000, 1]⟩
abbrev S4000 : Shape := ⟨1, ![4000]⟩
abbrev S50000x1 : Shape := ⟨2, ![50000, 1]⟩

abbrev nBuf : Space → Nat
  | .hbm => 46
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S1, .f32⟩
  | .hbm, ⟨2, _⟩ => ⟨S800000, .i32⟩
  | .hbm, ⟨3, _⟩ => ⟨S800000, .i32⟩
  | .hbm, ⟨4, _⟩ => ⟨S1, .f32⟩
  | .hbm, ⟨5, _⟩ => ⟨S64x128, .f32⟩
  | .hbm, ⟨6, _⟩ => ⟨S64, .f32⟩
  | .hbm, ⟨7, _⟩ => ⟨S1x128, .f32⟩
  | .hbm, ⟨8, _⟩ => ⟨S1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x128, .f32⟩
  | .hbm, ⟨28, _⟩ => ⟨S128x64, .f32⟩
  | .hbm, ⟨29, _⟩ => ⟨S1x64, .f32⟩
  | .hbm, ⟨30, _⟩ => ⟨S1x1, .f32⟩
  | .hbm, ⟨31, _⟩ => ⟨S800000x64, .f32⟩
  | .hbm, ⟨32, _⟩ => ⟨S800000x1, .f32⟩
  | .hbm, ⟨33, _⟩ => ⟨S_, .f32⟩
  | .hbm, ⟨34, _⟩ => ⟨S50000x1, .f32⟩
  | .hbm, ⟨35, _⟩ => ⟨S800000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x64, .f32⟩
  | .hbm, ⟨45, _⟩ => ⟨S50000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x128, .f32⟩
  | .local _ .vmem, ⟨4, _⟩ => ⟨S1x64, .f32⟩
  | .local _ .vmem, ⟨5, _⟩ => ⟨S1x1, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S64x128_S128x64_1_0 : S64x128.Transposes [1, 0] S128x64
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S1x128_S1x128_0_0 : ∀ a, (![0, 0] : Fin 2 → Nat) a + S1x128.size a ≤ S1x128.size a
  h_S1x128 : 0 < S1x128.numel
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  bcast_S_S50000x1 : S_.BroadcastsInDim S50000x1 (![] : Fin 0 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S4000x128_S128x64_S4000x64_1_0_0_1_n_n_wf : DotDims.WF S4000x128 S128x64 S4000x64 [1] [0] [0] [1] [] []
  scatter_S50000x1_S800000x1_S800000x1_1_0_0_1_wf : ScatterDims.WF S50000x1 S800000x1 S800000x1 [1] [0] [0] 1
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S800000x64.size a
  hwx0_5 : ∀ i : grid0.Coords, EltTy.bits .f32 = 32 ∨ (Rect.block (s := S800000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S800000x1.size a
  hwx0_6 : ∀ i : grid0.Coords, EltTy.bits .f32 = 32 ∨ (Rect.block (s := S800000x1) S4000x1.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S4000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S1 : Shape := ⟨1, ![1]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x64 : Shape := ⟨2, ![128, 64]⟩
abbrev S1x64 : Shape := ⟨2, ![1, 64]⟩
abbrev S128x1 : Shape := ⟨2, ![128, 1]⟩
abbrev S1x1 : Shape := ⟨2, ![1, 1]⟩
abbrev S50000x1 : Shape := ⟨2, ![50000, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1, .f32⟩
  | .hbm, ⟨2, _⟩ => ⟨S800000, .i32⟩
  | .hbm, ⟨3, _⟩ => ⟨S800000, .i32⟩
  | .hbm, ⟨4, _⟩ => ⟨S1, .f32⟩
  | .hbm, ⟨5, _⟩ => ⟨S64x128, .f32⟩
  | .hbm, ⟨6, _⟩ => ⟨S64, .f32⟩
  | .hbm, ⟨7, _⟩ => ⟨S1x128, .f32⟩
  | .hbm, ⟨8, _⟩ => ⟨S1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x128, .f32⟩
  | .hbm, ⟨28, _⟩ => ⟨S128x64, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S128x1, .f32⟩
  | .hbm, ⟨37, _⟩ => ⟨S800000x1, .f32⟩
  | .hbm, ⟨38, _⟩ => ⟨S1x1, .f32⟩
  | .hbm, ⟨39, _⟩ => ⟨S800000x1, .f32⟩
  | .hbm, ⟨40, _⟩ => ⟨S800000x1, .f32⟩
  | .hbm, ⟨41, _⟩ => ⟨S_, .f32⟩
  | .hbm, ⟨42, _⟩ => ⟨S50000x1, .f32⟩
  | .hbm, ⟨43, _⟩ => ⟨S800000x1, .i32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S800000x64, .f32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S50000x64, .f32⟩
  | .hbm, ⟨55, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S50000x1 : S_.BroadcastsInDim S50000x1 (![] : Fin 0 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.EdgeSpec.lean ====
/-
  What one edge contributes, over the extended reals.

  `h` holds, for each of the 800000 edges, the 128 concatenated features of its two endpoints; `w` is the
  transposed feature weight matrix (128 × 64), `bf` its bias as a row (1 × 64), `ww` the attention weights (1 × 128)
  and `bw` the attention bias (1 × 1).  Edge `e` has the attention score

      score e = Σ_k h[e,k] · ww[0,k] + bw[0,0]

  and sends, in output feature `o`, the message

      message e o = max (Σ_k h[e,k] · w[k,o] + bf[0,o]) 0 · score e.

  Both are plain sums and products of extended reals: no order of summation and no tiling of the edges is left in them.
-/
import Idealize.ShloMosaic.Lib.ValueIdx

noncomputable section

namespace Cert.EdgeSpec

open Idealize.ShloMosaic Idealize.ShloMosaic.ValueIdx

/-- The attention score of edge `e`. -/
def scoreAt (h : FVec Ideal ⟨2, ![800000, 128]⟩ .f32) (ww : FVec Ideal ⟨2, ![1, 128]⟩ .f32) (bw : FVec Ideal ⟨2, ![1, 1]⟩ .f32)
    (e : Fin 800000) : EReal :=
  (∑ k : Fin 128, h (ix2 e k) * ww (ix2 0 k)) + bw (ix2 0 0)

/-- The message of edge `e` in output feature `o`: the rectified linear feature times the edge's score. -/
def messageAt (h : FVec Ideal ⟨2, ![800000, 128]⟩ .f32) (w : FVec Ideal ⟨2, ![128, 64]⟩ .f32) (bf : FVec Ideal ⟨2, ![1, 64]⟩ .f32)
    (ww : FVec Ideal ⟨2, ![1, 128]⟩ .f32) (bw : FVec Ideal ⟨2, ![1, 1]⟩ .f32) (e : Fin 800000) (o : Fin 64) : EReal :=
  max ((∑ k : Fin 128, h (ix2 e k) * w (ix2 k o)) + bf (ix2 0 o)) 0 * scoreAt h ww bw e

/-- The scores of all edges, as the 800000 × 1 column the programs keep them in. -/
def score (h : FVec Ideal ⟨2, ![800000, 128]⟩ .f32) (ww : FVec Ideal ⟨2, ![1, 128]⟩ .f32) (bw : FVec Ideal ⟨2, ![1, 1]⟩ .f32) :
    FVec Ideal ⟨2, ![800000, 1]⟩ .f32 :=
  fun i => scoreAt h ww bw (i 0)

/-- The messages of all edges, 800000 × 64. -/
def message (h : FVec Ideal ⟨2, ![800000, 128]⟩ .f32) (w : FVec Ideal ⟨2, ![128, 64]⟩ .f32) (bf : FVec Ideal ⟨2, ![1, 64]⟩ .f32)
    (ww : FVec Ideal ⟨2, ![1, 128]⟩ .f32) (bw : FVec Ideal ⟨2, ![1, 1]⟩ .f32) : FVec Ideal ⟨2, ![800000, 64]⟩ .f32 :=
  fun i => messageAt h w bf ww bw (i 0) (i 1)

end Cert.EdgeSpec

end
-- ==== Proof.LibColumn.lean ====
/-
  Layout operations on a column, read at an index: the forms a sum taken with its axis kept meets.
  A vector of `a` entries cast to a column `[a, 1]`; a column broadcast along a new second axis to `[a, b]`; a single
  entry `[1, 1]` broadcast to every place of `[a, b]`; and a one-element array recast as a scalar and back.
  Each operation only relabels: the entry read is named by its coordinates.
-/
import Idealize.ShloMosaic.Lib.Pipeline.Value
import Idealize.ShloMosaic.Lib.ValueIdx

namespace Cert.LibColumn

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast to `[a, b]` reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A one-element array recast as a scalar holds its one entry. -/
theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 0) := by
  unfold shapeCast
  exact congrArg x (funext fun d => match d with | ⟨0, _⟩ => Fin.ext (Nat.lt_one_iff.mp (Fin.isLt _)))

/-- A scalar recast as a `[1, 1]` array holds the scalar at its one place. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 := by
  unfold shapeCast
  exact congrArg x (funext fun d => d.elim0)

end Cert.LibColumn
-- ==== Proof.TileValue.lean ====
/-
  One tile of 4000 edges, read entry by entry over the extended reals.

  For the tile's block `h` of concatenated endpoint features (4000 × 128), the transposed feature weights `w` (128 × 64),
  the attention weights `ww` (1 × 128) and the two biases `bf` (1 × 64), `bw` (1 × 1), the body stores

    score r    = Σ_k h[r,k] · ww[0,k] + bw[0,0]                          (a column, 4000 × 1)
    message r o = max (Σ_k h[r,k] · w[k,o] + bf[0,o]) 0 · score r         (4000 × 64).

  A change of float format is the identity on extended reals, the matrix product into a zero accumulator is the plain
  sum of products over the contracted axis, and the lane sum is the sum over the second coordinate; the remaining
  operations only relabel entries (casts to the same shape, a vector cast to a column, rows, columns and single
  entries broadcast).
-/
import proofs.«169299_j82197084111207_1_alg».proof.Proof.Gen.KernelIdeal.Skeleton
import proofs.«169299_j82197084111207_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen

/-- The sum along the lanes of a 4000 × 128 tile, at row `r`, is the sum over the 128 columns of that row. -/
theorem laneSum_apply (x : FVec Ideal S4000x128 .f32) (h : S4000x128.Reduces [1] S4000) (hφ : FKind.Formats .f32)
    (hacc : (0x00000000#32 : BitVec 32) = 0x00000000#32) (r : Fin 4000) :
    multiReduction .add [1] S4000 x 0x00000000#32 h hφ hacc (ix1 r) = ∑ k : Fin 128, x (ix2 r k) := by
  refine (Ideal.multiReduction_add_single x 0x00000000#32 h hφ hacc (ix1 r)).trans ?_
  refine Finset.sum_congr rfl fun k _ => congrArg x ?_
  funext a
  match a with
  | ⟨0, _⟩ => rfl
  | ⟨1, _⟩ => rfl

/-! The tile's matrix product: which entries of the two operands meet at output entry `(r, o)` and contraction
    coordinate `k`. -/

theorem lhs_axis0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_axis1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_axis0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_axis1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The tile's matrix product into the zero accumulator, at `(r, o)`: the sum over `k` of row `r` of the left operand
    against column `o` of the right one. -/
theorem tileMatmul_apply (a : FVec Ideal S4000x128 .bf16) (b : FVec Ideal S128x64 .bf16) (r : Fin 4000) (o : Fin 64) :
    matmul dot_S4000x128_S128x64_S4000x64_1_0_0_1_n_n none a b (constant S4000x64 .f32 0x00000000#32) (ix2 r o)
      = ∑ k : Fin 128, a (ix2 r k) * b (ix2 k o) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r o) ((contrEquiv1 dot_S4000x128_S128x64_S4000x64_1_0_0_1_n_n 128 rfl rfl).symm k) = ix2 r k := funext fun ax => Fin.ext (by
    match ax with
    | ⟨0, _⟩ => exact lhs_axis0 _ _
    | ⟨1, _⟩ => exact (lhs_axis1 _ _).trans hk)
  have er : dot_S4000x128_S128x64_S4000x64_1_0_0_1_n_n.rhsIdx (ix2 r o) ((contrEquiv1 dot_S4000x128_S128x64_S4000x64_1_0_0_1_n_n 128 rfl rfl).symm k) = ix2 k o := funext fun ax => Fin.ext (by
    match ax with
    | ⟨0, _⟩ => exact (rhs_axis0 _ _).trans hk
    | ⟨1, _⟩ => exact rhs_axis1 _ _)
  rw [el, er]

/-- The score column the body stores, at row `r`. -/
theorem score_apply (v0 : Vec Ideal S4000x128 .f32) (v13 : Vec Ideal S1x128 .f32) (v18 : Vec Ideal S1x1 .f32) (r : Fin 4000) (u : Fin 1) :
    k0_pay2 (F := Ideal) v0 v13 v18 (ix2 r u) = (∑ k : Fin 128, v0 (ix2 r k) * v13 (ix2 0 k)) + v18 (ix2 0 0) := by
  unfold k0_pay2 k0_pay1
  dsimp only
  rw [addf_apply]
  refine congrArg₂ (· + ·) ?_ ?_
  · refine (Cert.LibColumn.shapeCast_a_a1_apply _ shapeCasts_S4000_S4000x1 r u).trans ?_
    refine (laneSum_apply _ _ _ _ r).trans ?_
    refine Finset.sum_congr rfl fun k _ => ?_
    rw [mulf_apply, shapeCast_self]
    exact congrArg (v0 (ix2 r k) * ·) (broadcastTo_1b_ab_apply v13 broadcasts_S1x128_S4000x128 r k)
  · refine (Cert.LibColumn.broadcastTo_11_ab_apply _ broadcasts_S1x1_S4000x1 r u).trans ?_
    rw [shapeCast_self]

/-- The message block the body stores, at `(r, o)`. -/
theorem message_apply (v0 : Vec Ideal S4000x128 .f32) (v3 : Vec Ideal S128x64 .f32) (v7 : Vec Ideal S1x64 .f32) (v13 : Vec Ideal S1x128 .f32) (v18 : Vec Ideal S1x1 .f32) (r : Fin 4000) (o : Fin 64) :
    k0_pay3 (F := Ideal) v0 v3 v7 v13 v18 (ix2 r o)
      = max ((∑ k : Fin 128, v0 (ix2 r k) * v3 (ix2 k o)) + v7 (ix2 0 o)) 0 * k0_pay2 (F := Ideal) v0 v13 v18 (ix2 r 0) := by
  unfold k0_pay3 k0_pay1
  dsimp only
  rw [mulf_apply, maximumf_apply, addf_apply]
  refine congrArg₂ (· * ·) (congrArg₂ max (congrArg₂ (· + ·) ?_ ?_) ?_) ?_
  · refine (tileMatmul_apply _ _ r o).trans ?_
    refine Finset.sum_congr rfl fun k _ => ?_
    rw [truncf_apply, truncf_apply, shapeCast_self, shapeCast_self]
  · refine (broadcastTo_1b_ab_apply _ broadcasts_S1x64_S4000x64 r o).trans ?_
    rw [shapeCast_self]
  · exact Ideal.ofBits_zero_f32
  · exact Cert.LibColumn.broadcastTo_a1_ab_apply _ broadcasts_S4000x1_S4000x64 r o

end Cert.KernelIdeal.TileValue

end
-- ==== Proof.EdgeArrays.lean ====
/-
  From tiles to whole arrays.

  The grid has 200 points; point `t` works on edges 4000·t … 4000·t + 3999.  Its feature block is those rows of the
  edge-feature array, the weights and biases are staged whole at every point, and the two blocks it writes back are
  those rows of the message array (800000 × 64) and of the score column (800000 × 1).  So what point `t` writes back is
  block `t` of ONE function of the arrays the region finds — the message and the score of `EdgeSpec` — and since the 200
  blocks cover all 800000 rows, the two output arrays end holding exactly those functions.
-/
import proofs.«169299_j82197084111207_1_alg».proof.Proof.Gen.KernelIdeal.Frame
import proofs.«169299_j82197084111207_1_alg».proof.Proof.EdgeSpec
import proofs.«169299_j82197084111207_1_alg».proof.Proof.TileValue
import Idealize.ShloMosaic.Lib.Pipeline.Value
import Idealize.ShloMosaic.Lib.ValueIdx

set_option maxRecDepth 16384

noncomputable section

namespace Cert.KernelIdeal.EdgeArrays

open Idealize.ShloMosaic Idealize.ShloMosaic.TcCoe Idealize.ShloMosaic.ValueIdx Idealize.SL.Sem
open Cert.KernelIdeal Cert.KernelIdeal.Gen Cert.EdgeSpec
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The block index maps in closed form, decided over the 200 points: the feature block and the two output blocks sit
    at block row `t`, block column 0; every other window is staged whole, at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point, read off the arrays -/

/-- Row `r` of point `t`'s feature block is row `4000·t + r` of the edge-feature array. -/
theorem features_block (c : Dev nD) (t : Fin cfg0.N) (r : Fin 4000) (k : Fin 128) (e : Fin 800000)
    (he : e.val = t.val * 4000 + r.val) : iblk m c 0 t (ix2 r k) = V m c main_v14 (ix2 e k) := by
  obtain ⟨e0, e1, -⟩ := block_indices t
  show V m c main_v14 (((cfg0.win 0).blk t).view.emb (ix2 r k)) = V m c main_v14 (ix2 e k)
  refine congrArg _ (funext fun a => Fin.ext ?_)
  match a with
  | ⟨0, _⟩ => show win0_0.index t (0 : Fin 2) * 4000 + 1 * r.val = e.val; omega
  | ⟨1, _⟩ => show win0_0.index t (1 : Fin 2) * 128 + 1 * k.val = k.val; omega

/-- The feature weights are staged whole. -/
theorem weights_block (c : Dev nD) (t : Fin cfg0.N) (k : Fin 128) (o : Fin 64) :
    iblk m c 1 t (ix2 k o) = V m c main_v15 (ix2 k o) := by
  obtain ⟨-, -, e0, e1, -⟩ := block_indices t
  show V m c main_v15 (((cfg0.win 1).blk t).view.emb (ix2 k o)) = V m c main_v15 (ix2 k o)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * o.val = o.val; omega

/-- The attention weights are staged whole. -/
theorem attention_block (c : Dev nD) (t : Fin cfg0.N) (k : Fin 128) :
    iblk m c 2 t (ix2 (0 : Fin 1) k) = V m c main_arg7 (ix2 (0 : Fin 1) k) := by
  obtain ⟨-, -, -, -, e0, e1, -⟩ := block_indices t
  show V m c main_arg7 (((cfg0.win 2).blk t).view.emb (ix2 (0 : Fin 1) k)) = V m c main_arg7 (ix2 (0 : Fin 1) k)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The feature bias row is staged whole. -/
theorem bias_block (c : Dev nD) (t : Fin cfg0.N) (o : Fin 64) :
    iblk m c 3 t (ix2 (0 : Fin 1) o) = V m c main_v16 (ix2 (0 : Fin 1) o) := by
  obtain ⟨-, -, -, -, -, -, e0, e1, -⟩ := block_indices t
  show V m c main_v16 (((cfg0.win 3).blk t).view.emb (ix2 (0 : Fin 1) o)) = V m c main_v16 (ix2 (0 : Fin 1) o)
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * o.val = o.val; omega

/-- The attention bias is staged whole. -/
theorem attention_bias_block (c : Dev nD) (t : Fin cfg0.N) :
    iblk m c 4 t (ix2 (0 : Fin 1) (0 : Fin 1)) = V m c main_v17 (ix2 (0 : Fin 1) (0 : Fin 1)) := by
  obtain ⟨-, -, -, -, -, -, -, -, e0, e1, -⟩ := block_indices t
  show V m c main_v17 (((cfg0.win 4).blk t).view.emb (ix2 (0 : Fin 1) (0 : Fin 1))) = V m c main_v17 (ix2 (0 : Fin 1) (0 : Fin 1))
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## What a point writes back -/

/-- The score of the edge in row `r` of point `t`'s tile, from the tile's blocks. -/
theorem tile_score (c : Dev nD) (t : Fin cfg0.N) (r : Fin 4000) (u : Fin 1) (e : Fin 800000) (he : e.val = t.val * 4000 + r.val) :
    k0_pay2 (F := Ideal) (iblk m c 0 t) (iblk m c 2 t) (iblk m c 4 t) (ix2 r u)
      = scoreAt (V m c main_v14) (V m c main_arg7) (V m c main_v17) e := by
  refine (TileValue.score_apply (iblk m c 0 t) (iblk m c 2 t) (iblk m c 4 t) r u).trans ?_
  unfold scoreAt
  refine congrArg₂ (· + ·) (Finset.sum_congr rfl fun k _ => congrArg₂ (· * ·) ?_ ?_) ?_
  · exact features_block m c t r k e he
  · exact attention_block m c t k
  · exact attention_bias_block m c t

/-- Point `t` writes back block `t` of the score column. -/
theorem flushed_score (c : Dev nD) (t : Fin cfg0.N) :
    (dats m 0 c).flushed 6 t
      = ((cfg0.win 6).blk t).view.read (Elt Ideal) (score (V m c main_v14) (V m c main_arg7) (V m c main_v17)) := by
  show (cfg0.win 6).cut (grid0.coords t) ((dats m 0 c).after 6 t) = _
  rw [after0_6]
  unfold out0_6
  rw [View.canon_unit_zero zero_offsets]
  simp only [View.ld_unit_zero (S := S4000x128) zero_offsets, View.ld_unit_zero (S := S1x128) zero_offsets, View.ld_unit_zero (S := S1x1) zero_offsets]
  funext j
  obtain ⟨r, u, rfl⟩ : ∃ (r : Fin 4000) (u : Fin 1), j = ix2 r u := ⟨j 0, j 1, eq_ix2 j⟩
  obtain ⟨-, -, -, -, -, -, -, -, -, -, -, -, e0, e1⟩ := block_indices t
  show k0_pay2 (F := Ideal) (iblk m c 0 t) (iblk m c 2 t) (iblk m c 4 t) (ix2 r u)
    = scoreAt (V m c main_v14) (V m c main_arg7) (V m c main_v17) ((((cfg0.win 6).blk t).view.emb (ix2 r u)) 0)
  refine tile_score m c t r u _ ?_
  show win0_6.index t (0 : Fin 2) * 4000 + 1 * r.val = t.val * 4000 + r.val
  omega

/-- Point `t` writes back block `t` of the message array. -/
theorem flushed_message (c : Dev nD) (t : Fin cfg0.N) :
    (dats m 0 c).flushed 5 t
      = ((cfg0.win 5).blk t).view.read (Elt Ideal)
          (message (V m c main_v14) (V m c main_v15) (V m c main_v16) (V m c main_arg7) (V m c main_v17)) := by
  show (cfg0.win 5).cut (grid0.coords t) ((dats m 0 c).after 5 t) = _
  rw [after0_5]
  unfold out0_5
  rw [View.canon_unit_zero zero_offsets]
  simp only [View.ld_unit_zero (S := S4000x128) zero_offsets, View.ld_unit_zero (S := S128x64) zero_offsets, View.ld_unit_zero (S := S1x128) zero_offsets, View.ld_unit_zero (S := S1x64) zero_offsets, View.ld_unit_zero (S := S1x1) zero_offsets]
  funext j
  obtain ⟨r, o, rfl⟩ : ∃ (r : Fin 4000) (o : Fin 64), j = ix2 r o := ⟨j 0, j 1, eq_ix2 j⟩
  obtain ⟨-, -, -, -, -, -, -, -, -, -, e0, e1, -⟩ := block_indices t
  show k0_pay3 (F := Ideal) (iblk m c 0 t) (iblk m c 1 t) (iblk m c 3 t) (iblk m c 2 t) (iblk m c 4 t) (ix2 r o)
    = messageAt (V m c main_v14) (V m c main_v15) (V m c main_v16) (V m c main_arg7) (V m c main_v17)
        ((((cfg0.win 5).blk t).view.emb (ix2 r o)) 0) ((((cfg0.win 5).blk t).view.emb (ix2 r o)) 1)
  have he : ((((cfg0.win 5).blk t).view.emb (ix2 r o)) 0).val = t.val * 4000 + r.val := by
    show win0_5.index t (0 : Fin 2) * 4000 + 1 * r.val = t.val * 4000 + r.val
    omega
  have ho : (((cfg0.win 5).blk t).view.emb (ix2 r o)) 1 = o := Fin.ext (by
    show win0_5.index t (1 : Fin 2) * 64 + 1 * o.val = o.val
    omega)
  rw [ho]
  refine (TileValue.message_apply (iblk m c 0 t) (iblk m c 1 t) (iblk m c 3 t) (iblk m c 2 t) (iblk m c 4 t) r o).trans ?_
  unfold messageAt
  refine congrArg₂ (· * ·) (congrArg₂ max (congrArg₂ (· + ·) (Finset.sum_congr rfl fun k _ => congrArg₂ (· * ·) ?_ ?_) ?_) rfl) ?_
  · exact features_block m c t r k _ he
  · exact weights_block m c t k o
  · exact bias_block m c t o
  · exact tile_score m c t r 0 _ he

/-! ## The 200 blocks cover the arrays -/

/-- An index of the score column is in point `t`'s block iff each coordinate is in the block's range. -/
theorem mem_score_block (t : Fin cfg0.N) (i : S800000x1.Idx) :
    i ∈ ((cfg0.win 6).blk t).view.set ↔ ∀ a : Fin 2, win0_6.index t a * S4000x1.size a ≤ (i a).val ∧ (i a).val < win0_6.index t a * S4000x1.size a + S4000x1.size a := by
  show i ∈ ((View.whole main_v18_1).slice (win0_6.rect t)).set ↔ _
  rw [View.set_slice_whole, Rect.mem_set_unit]
  exact Iff.rfl

/-- An index of the message array is in point `t`'s block iff each coordinate is in the block's range. -/
theorem mem_message_block (t : Fin cfg0.N) (i : S800000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v18_0).slice (win0_5.rect t)).set ↔ _
  rw [View.set_slice_whole, Rect.mem_set_unit]
  exact Iff.rfl

/-- Row `e` lies in the block of point `e / 4000`. -/
theorem score_covered (i : S800000x1.Idx) :
    ∃ t : Fin cfg0.N, (cfg0.win 6).flush t = true ∧ i ∈ ((cfg0.win 6).blk t).view.set := by
  have hi0 : (i 0).val < 800000 := idx2_lt0 i
  have hi1 : (i 1).val < 1 := idx2_lt1 i
  let t : Fin cfg0.N := ⟨(i 0).val / 4000, by show _ < grid0.N; rw [N_0]; omega⟩
  have ht : t.val = (i 0).val / 4000 := rfl
  obtain ⟨-, -, -, -, -, -, -, -, -, -, -, -, e0, e1⟩ := block_indices t
  refine ⟨t, flush0_6 t, ?_⟩
  rw [mem_score_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 1 ≤ (i 1).val ∧ (i 1).val < win0_6.index t (1 : Fin 2) * 1 + 1; omega

theorem message_covered (i : S800000x64.Idx) :
    ∃ t : Fin cfg0.N, (cfg0.win 5).flush t = true ∧ i ∈ ((cfg0.win 5).blk t).view.set := by
  have hi0 : (i 0).val < 800000 := idx2_lt0 i
  have hi1 : (i 1).val < 64 := idx2_lt1 i
  let t : Fin cfg0.N := ⟨(i 0).val / 4000, by show _ < grid0.N; rw [N_0]; omega⟩
  have ht : t.val = (i 0).val / 4000 := rfl
  obtain ⟨-, -, -, -, -, -, -, -, -, -, e0, e1, -⟩ := block_indices t
  refine ⟨t, flush0_5 t, ?_⟩
  rw [mem_message_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-! ## The two output arrays after the region -/

/-- The score column after the region: every edge's score. -/
theorem score_array (c : Dev nD) :
    (dats m 0 c).arrAt 6 cfg0.N = score (V m c main_v14) (V m c main_arg7) (V m c main_v17) :=
  (dats m 0 c).arrAt_eq_of_cover 6 (score (V m c main_v14) (V m c main_arg7) (V m c main_v17))
    (fun t _ => flushed_score m c t) score_covered

/-- The message array after the region: every edge's message. -/
theorem message_array (c : Dev nD) :
    (dats m 0 c).arrAt 5 cfg0.N = message (V m c main_v14) (V m c main_v15) (V m c main_v16) (V m c main_arg7) (V m c main_v17) :=
  (dats m 0 c).arrAt_eq_of_cover 5 (message (V m c main_v14) (V m c main_v15) (V m c main_v16) (V m c main_arg7) (V m c main_v17))
    (fun t _ => flushed_message m c t) message_covered

end Cert.KernelIdeal.EdgeArrays

end
-- ==== Proof.KernelResult.lean ====
/-
  The kernel program's result as one function of its arguments.

  Before the region the host gathers the source and target rows of `x`, joins them along the feature axis into the
  edge-feature array, transposes the feature weights, and recasts the two biases as a row and a single entry.  The
  region leaves the message array and the score column of `EdgeSpec` (`EdgeArrays`).  After it the host adds the scores
  and the messages of the edges that share a target into that target's row (two scatter-adds from zero), adds the
  constant to the summed scores, and divides the summed messages by them, row by row.  That tail is the same list of
  operations in the reference, so it is kept as ONE function `aggregate` of the target indices, the messages and the
  scores, and never opened.
-/
import proofs.«169299_j82197084111207_1_alg».proof.Proof.Gen.KernelIdeal.Frame
import proofs.«169299_j82197084111207_1_alg».proof.Proof.EdgeSpec
import proofs.«169299_j82197084111207_1_alg».proof.Proof.EdgeArrays
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.EdgeSpec
open Idealize.ShloMosaic.Pipeline (Dat Cfg Window)

/-! ## The host's pieces, as functions of the arguments -/

/-- An index below zero counts from the end: `i + 50000` where `i < 0`, else `i`. -/
def wrapIndex (ix : (⟨S800000, .i32⟩ : BufTy).Contents (Elt Ideal)) : (⟨S800000, .i32⟩ : BufTy).Contents (Elt Ideal) :=
  select (cmpi .slt ix (broadcastInDim S800000 ![] bcast_S_S800000 (constantI S_ 32 0#32)))
    (addi ix (broadcastInDim S800000 ![] bcast_S_S800000 (constantI S_ 32 50000#32))) ix

/-- The rows of `x` named by an index vector. -/
def gatherRows (x : (⟨S50000x64, .f32⟩ : BufTy).Contents (Elt Ideal)) (ix : (⟨S800000, .i32⟩ : BufTy).Contents (Elt Ideal)) :
    (⟨S800000x64, .f32⟩ : BufTy).Contents (Elt Ideal) :=
  Host.gather gather_S50000x64_S800000x1_S800000x64_1_0_n_n_0_1_164 x
    (broadcastInDim S800000x1 ![0] bcast_S800000_S800000x1_0 (wrapIndex ix))

/-- The edge features: each edge's source row of `x` followed by its target row. -/
def edgeFeatures (x : (⟨S50000x64, .f32⟩ : BufTy).Contents (Elt Ideal)) (src tgt : (⟨S800000, .i32⟩ : BufTy).Contents (Elt Ideal)) :
    (⟨S800000x128, .f32⟩ : BufTy).Contents (Elt Ideal) :=
  concatenate S800000x128 1 [⟨S800000x64, gatherRows x src⟩, ⟨S800000x64, gatherRows x tgt⟩] concatenates_S800000x64_S800000x64_S800000x128_d1

/-- The feature weights transposed, 128 × 64. -/
def weightsT (wf : (⟨S64x128, .f32⟩ : BufTy).Contents (Elt Ideal)) : (⟨S128x64, .f32⟩ : BufTy).Contents (Elt Ideal) :=
  transpose S128x64 [1, 0] wf transposes_S64x128_S128x64_1_0

/-- The feature bias as a row. -/
def biasRow (bf : (⟨S64, .f32⟩ : BufTy).Contents (Elt Ideal)) : (⟨S1x64, .f32⟩ : BufTy).Contents (Elt Ideal) :=
  shapeCast S1x64 bf shapeCasts_S64_S1x64

/-- The attention bias as a 1 × 1 array. -/
def biasEntry (bw : (⟨S1, .f32⟩ : BufTy).Contents (Elt Ideal)) : (⟨S1x1, .f32⟩ : BufTy).Contents (Elt Ideal) :=
  shapeCast S1x1 bw shapeCasts_S1_S1x1

/-- Per target node: the messages of its incoming edges summed, over their scores summed plus the constant. -/
def aggregate (tgt : (⟨S800000, .i32⟩ : BufTy).Contents (Elt Ideal)) (msg : (⟨S800000x64, .f32⟩ : BufTy).Contents (Elt Ideal))
    (sc : (⟨S800000x1, .f32⟩ : BufTy).Contents (Elt Ideal)) : (⟨S50000x64, .f32⟩ : BufTy).Contents (Elt Ideal) :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 tgt) msg)
    (broadcastInDim S50000x64 ![0, 1] bcast_S50000x1_S50000x64_0_1
      (addf
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0 tgt) sc)
        (broadcastInDim S50000x1 ![] bcast_S_S50000x1 (constant (F := Ideal) S_ .f32 0x358637BD#32))))

/-- The program's result from its arguments. -/
def forwardValue (x : (⟨S50000x64, .f32⟩ : BufTy).Contents (Elt Ideal)) (src tgt : (⟨S800000, .i32⟩ : BufTy).Contents (Elt Ideal))
    (wf : (⟨S64x128, .f32⟩ : BufTy).Contents (Elt Ideal)) (bf : (⟨S64, .f32⟩ : BufTy).Contents (Elt Ideal))
    (ww : (⟨S1x128, .f32⟩ : BufTy).Contents (Elt Ideal)) (bw : (⟨S1, .f32⟩ : BufTy).Contents (Elt Ideal)) :
    (⟨S50000x64, .f32⟩ : BufTy).Contents (Elt Ideal) :=
  aggregate tgt
    (message (edgeFeatures x src tgt) (weightsT wf) (biasRow bf) ww (biasEntry bw))
    (score (edgeFeatures x src tgt) ww (biasEntry bw))

variable (m : (ℓ : Loc nD τ sig) → Buf (Elt Ideal) ℓ)

/-! ## What the region finds -/

set_option maxHeartbeats 1000000 in
theorem found_features (c : Dev nD) :
    (V m c main_v14 : S800000x128.Idx → EReal)
      = edgeFeatures (m ((c : Thread nD τ).loc main_arg0)) (m ((c : Thread nD τ).loc main_arg2)) (m ((c : Thread nD τ).loc main_arg3)) := by
  show StableHlo.after hostOps0 (fun b => m (c, b)) (Proc.devRef .tc main_v14) = _
  after_results_simp <;> rfl

theorem found_weights (c : Dev nD) :
    (V m c main_v15 : S128x64.Idx → EReal) = weightsT (m ((c : Thread nD τ).loc main_arg5)) := by
  show StableHlo.after hostOps0 (fun b => m (c, b)) (Proc.devRef .tc main_v15) = _
  after_results
  rfl

theorem found_biasRow (c : Dev nD) :
    (V m c main_v16 : S1x64.Idx → EReal) = biasRow (m ((c : Thread nD τ).loc main_arg6)) := by
  show StableHlo.after hostOps0 (fun b => m (c, b)) (Proc.devRef .tc main_v16) = _
  after_results
  rfl

theorem found_biasEntry (c : Dev nD) :
    (V m c main_v17 : S1x1.Idx → EReal) = biasEntry (m ((c : Thread nD τ).loc main_arg8)) := by
  show StableHlo.after hostOps0 (fun b => m (c, b)) (Proc.devRef .tc main_v17) = _
  after_results
  rfl

/-! ## What the lines after the region leave -/

set_option maxHeartbeats 1000000 in
theorem found_result (c : Dev nD) :
    (Pipeline.afterTail₀ cfgs (dats m) 0 (V0 m) [hostOps1] c main_v28 : S50000x64.Idx → EReal)
      = aggregate (m ((c : Thread nD τ).loc main_arg3)) ((dats m 0 c).arrAt 5 cfg0.N) ((dats m 0 c).arrAt 6 cfg0.N) := by
  unfold Pipeline.afterTail₀
  show StableHlo.after hostOps1 _ (Proc.devRef .tc main_v28) = _
  after_results_simp
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h5 : Pipeline.withArrays (cfgs 0).spec c (V0 m c) (fun w => (dats m 0 c).arrAt w (cfgs 0).N) (Proc.devRef .tc main_v18_0)
      = (dats m 0 c).arrAt 5 cfg0.N :=
    Pipeline.withArrays_arr spec0 launch0.win.arr_inj c _ _ 5
  have h6 : Pipeline.withArrays (cfgs 0).spec c (V0 m c) (fun w => (dats m 0 c).arrAt w (cfgs 0).N) (Proc.devRef .tc main_v18_1)
      = (dats m 0 c).arrAt 6 cfg0.N :=
    Pipeline.withArrays_arr spec0 launch0.win.arr_inj c _ _ 6
  rw [h3, h5, h6]
  rfl

/-- The result buffer after the run, from the arguments. -/
theorem result_eq (c : Dev nD) :
    (Pipeline.afterTail₀ cfgs (dats m) 0 (V0 m) [hostOps1] c main_v28 : S50000x64.Idx → EReal)
      = forwardValue (m ((c : Thread nD τ).loc main_arg0)) (m ((c : Thread nD τ).loc main_arg2)) (m ((c : Thread nD τ).loc main_arg3))
          (m ((c : Thread nD τ).loc main_arg5)) (m ((c : Thread nD τ).loc main_arg6)) (m ((c : Thread nD τ).loc main_arg7))
          (m ((c : Thread nD τ).loc main_arg8)) := by
  rw [found_result, EdgeArrays.message_array, EdgeArrays.score_array, found_features, found_weights, found_biasRow, found_biasEntry, V_main_arg7]
  rfl

/-! ## The run -/

/-- Every weakly fair execution of the program terminates with the result buffer at `forwardValue` of the arguments and
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v28)
        = forwardValue (m ((c.tc : Thread nD τ).loc main_arg0)) (m ((c.tc : Thread nD τ).loc main_arg2)) (m ((c.tc : Thread nD τ).loc main_arg3))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v28 (Pipeline.mem_restRefs_of main_v28 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 2).trans ((((dats m 0 c).arrAt_in 2 rfl _).trans ((A_eq m c 2).trans (V_main_arg7 m c)))),
      (((h c).2 main_arg8 (Pipeline.mem_restRefs_of main_arg8 (by decide) (by decide))).trans (W_main_arg8 m (dats m) c))⟩)
    (run_main m ρ)

end Cert.KernelIdeal.Result

end
-- ==== Proof.RefResult.lean ====
/-
  The reference program's result is the same function of the arguments.

  The reference gathers and joins the same edge features, multiplies them by the transposed feature weights and by the
  transposed attention weights (two contractions over the 128 features), adds the biases, rectifies, multiplies each
  edge's 64 features by its score, and ends with the same aggregation over target nodes.  Read entry by entry over the
  extended reals the two contractions are the sums `Σ_k h[e,k] · w[k,o]` and `Σ_k h[e,k] · ww[0,k]` of `EdgeSpec`; a bias
  broadcast from a vector holds the same entries as the bias recast as a row; the aggregation is not opened.
-/
import proofs.«169299_j82197084111207_1_alg».proof.Proof.Gen.ReferenceIdeal.Read
import proofs.«169299_j82197084111207_1_alg».proof.Proof.EdgeSpec
import proofs.«169299_j82197084111207_1_alg».proof.Proof.KernelResult
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.EdgeSpec

/-- The reference's score column is the scores of `EdgeSpec`. -/
theorem score_eq (x0 : (⟨S50000x64, .f32⟩ : BufTy).Contents (Elt Ideal)) (x2 x3 : (⟨S800000, .i32⟩ : BufTy).Contents (Elt Ideal))
    (x7 : (⟨S1x128, .f32⟩ : BufTy).Contents (Elt Ideal)) (x8 : (⟨S1, .f32⟩ : BufTy).Contents (Elt Ideal)) :
    val_main_v25 (F := Ideal) x0 x2 x3 x7 x8
      = score (val_main_v14 (F := Ideal) x0 x2 x3) x7 (val_main_v23 (F := Ideal) x8) := by
  funext i
  rw [val_main_v25_apply, val_main_v22_apply, val_main_v24_apply]
  unfold score scoreAt
  simp only [Ideal.addf_def]
  refine congrArg₂ (· + ·) (Finset.sum_congr rfl fun k _ => congrArg₂ (· * ·) (congrArg _ ?_) ?_) (congrArg _ ?_)
  · funext a
    match a with
    | ⟨0, _⟩ => rfl
    | ⟨1, _⟩ => rfl
  · rw [val_main_v21_apply]
    refine congrArg x7 (funext fun a => ?_)
    match a with
    | ⟨0, _⟩ => exact Fin.ext (Nat.lt_one_iff.mp (idx2_lt1 i))
    | ⟨1, _⟩ => rfl
  · funext a
    match a with
    | ⟨0, _⟩ => rfl
    | ⟨1, _⟩ => rfl

/-- The reference's message array is the messages of `EdgeSpec`. -/
theorem message_eq (x0 : (⟨S50000x64, .f32⟩ : BufTy).Contents (Elt Ideal)) (x2 x3 : (⟨S800000, .i32⟩ : BufTy).Contents (Elt Ideal))
    (x5 : (⟨S64x128, .f32⟩ : BufTy).Contents (Elt Ideal)) (x6 : (⟨S64, .f32⟩ : BufTy).Contents (Elt Ideal))
    (x7 : (⟨S1x128, .f32⟩ : BufTy).Contents (Elt Ideal)) (x8 : (⟨S1, .f32⟩ : BufTy).Contents (Elt Ideal)) :
    val_main_v32 (F := Ideal) x0 x2 x3 x5 x6 x7 x8
      = message (val_main_v14 (F := Ideal) x0 x2 x3) (val_main_v15 (F := Ideal) x5) (val_main_v17 (F := Ideal) x6) x7
          (val_main_v23 (F := Ideal) x8) := by
  funext i
  rw [val_main_v32_apply, val_main_v20_apply, val_main_v19_apply, val_main_v16_apply, val_main_v18_apply, val_main_v31_apply,
    val_main_call0_v0_apply, val_main_call0_cst_apply, score_eq]
  unfold message messageAt score
  simp only [Ideal.mulf_def, Ideal.maximumf_def, Ideal.addf_def, Ideal.ofBits_def, Ideal.ofBits_zero_f32]
  refine congrArg₂ (· * ·) (congrArg₂ max (congrArg₂ (· + ·)
    (Finset.sum_congr rfl fun k _ => congrArg₂ (· * ·) (congrArg _ ?_) (congrArg _ ?_)) (congrArg _ ?_)) rfl) rfl
  · funext a
    match a with
    | ⟨0, _⟩ => rfl
    | ⟨1, _⟩ => rfl
  · funext a
    match a with
    | ⟨0, _⟩ => rfl
    | ⟨1, _⟩ => rfl
  · funext a
    match a with
    | ⟨0, _⟩ => rfl
    | ⟨1, _⟩ => rfl

/-! ## The two programs' host pieces name the same arrays -/

/-- The reference's edge features are the kernel program's. -/
theorem features_eq (x0 : (⟨S50000x64, .f32⟩ : BufTy).Contents (Elt Ideal)) (x2 x3 : (⟨S800000, .i32⟩ : BufTy).Contents (Elt Ideal)) :
    val_main_v14 (F := Ideal) x0 x2 x3 = Cert.KernelIdeal.Result.edgeFeatures x0 x2 x3 := rfl

/-- So are its transposed weights. -/
theorem weights_eq (x5 : (⟨S64x128, .f32⟩ : BufTy).Contents (Elt Ideal)) :
    val_main_v15 (F := Ideal) x5 = Cert.KernelIdeal.Result.weightsT x5 := rfl

/-- A vector broadcast into a row holds the entries of the vector recast as a row. -/
theorem biasRow_eq (x6 : (⟨S64, .f32⟩ : BufTy).Contents (Elt Ideal)) :
    val_main_v17 (F := Ideal) x6 = Cert.KernelIdeal.Result.biasRow x6 := by
  funext i
  obtain ⟨u, o, rfl⟩ : ∃ (u : Fin 1) (o : Fin 64), i = ix2 u o := ⟨i 0, i 1, eq_ix2 i⟩
  rw [val_main_v17_apply]
  unfold Cert.KernelIdeal.Result.biasRow
  refine Eq.trans (congrArg x6 ?_) (shapeCast_a_1a_apply x6 _ u o).symm
  funext a
  match a with
  | ⟨0, _⟩ => rfl

/-- The same for the single attention bias. -/
theorem biasEntry_eq (x8 : (⟨S1, .f32⟩ : BufTy).Contents (Elt Ideal)) :
    val_main_v23 (F := Ideal) x8 = Cert.KernelIdeal.Result.biasEntry x8 := by
  funext i
  obtain ⟨u, o, rfl⟩ : ∃ (u : Fin 1) (o : Fin 1), i = ix2 u o := ⟨i 0, i 1, eq_ix2 i⟩
  rw [val_main_v23_apply]
  unfold Cert.KernelIdeal.Result.biasEntry
  refine Eq.trans (congrArg x8 ?_) (shapeCast_a_1a_apply x8 _ u o).symm
  funext a
  match a with
  | ⟨0, _⟩ => exact Fin.ext (Nat.lt_one_iff.mp o.isLt).symm

/-- The reference's aggregation is the kernel program's, operation for operation. -/
theorem aggregate_eq (x0 : (⟨S50000x64, .f32⟩ : BufTy).Contents (Elt Ideal)) (x2 x3 : (⟨S800000, .i32⟩ : BufTy).Contents (Elt Ideal))
    (x5 : (⟨S64x128, .f32⟩ : BufTy).Contents (Elt Ideal)) (x6 : (⟨S64, .f32⟩ : BufTy).Contents (Elt Ideal))
    (x7 : (⟨S1x128, .f32⟩ : BufTy).Contents (Elt Ideal)) (x8 : (⟨S1, .f32⟩ : BufTy).Contents (Elt Ideal)) :
    val_main_v37 (F := Ideal) x0 x2 x3 x5 x6 x7 x8
      = Cert.KernelIdeal.Result.aggregate x3 (val_main_v32 (F := Ideal) x0 x2 x3 x5 x6 x7 x8) (val_main_v25 (F := Ideal) x0 x2 x3 x7 x8) := rfl

/-- THE REFERENCE'S RESULT, from its arguments: the kernel program's `forwardValue`. -/
theorem result_eq (x0 : (⟨S50000x64, .f32⟩ : BufTy).Contents (Elt Ideal)) (x2 x3 : (⟨S800000, .i32⟩ : BufTy).Contents (Elt Ideal))
    (x5 : (⟨S64x128, .f32⟩ : BufTy).Contents (Elt Ideal)) (x6 : (⟨S64, .f32⟩ : BufTy).Contents (Elt Ideal))
    (x7 : (⟨S1x128, .f32⟩ : BufTy).Contents (Elt Ideal)) (x8 : (⟨S1, .f32⟩ : BufTy).Contents (Elt Ideal)) :
    val_main_v37 (F := Ideal) x0 x2 x3 x5 x6 x7 x8 = Cert.KernelIdeal.Result.forwardValue x0 x2 x3 x5 x6 x7 x8 := by
  rw [aggregate_eq, message_eq, score_eq, features_eq, weights_eq, biasRow_eq, biasEntry_eq]
  rfl

end Cert.ReferenceIdeal.RefValue

end
-- ==== Proof.lean ====
/- A graph-attention layer that averages over incoming edges: the tiled kernel program against the plain jnp program,
   over the extended reals.

   Both programs gather, for each of the 800000 edges, the source and target rows of `x` and join them into 128 edge
   features `h[e,·]`; both end by summing, per target node, the edges' messages and scores and dividing the one by the
   other plus a constant.  In between the reference computes, for every edge at once,

       score e     = Σ_k h[e,k] · Ww[0,k] + bw
       message e o = max (Σ_k h[e,k] · Wf[o,k] + bf[o]) 0 · score e

   by two contractions, while the kernel program walks the edges in 200 tiles of 4000, each tile forming the same two
   quantities from its block of `h`: a matrix product into a zero accumulator (the narrowing to a 16-bit format is the
   identity on extended reals) and a sum along the lanes.  A sum over the 128 features does not depend on how the edges are
   tiled, so the two middle stages are one function (`EdgeSpec`), and so are the whole programs: commutativity of the
   product and of the finite sum is all the algebra there is, and it holds at the infinities too, so the precondition is
   never opened.

   Proof/TileValue.lean reads one tile's two stored blocks entry by entry; Proof/EdgeArrays.lean shows that the 200
   tiles' blocks fill the message and score arrays with `EdgeSpec`'s functions; Proof/KernelResult.lean names the host
   pieces before and after the region and the kernel program's result; Proof/RefResult.lean reads the reference's
   operations at an index and arrives at the same function.  The frames of the two kernel programs are the generated
   ones; the reference's is its generated run with the result dropped.  The idealized kernel is the kernel's own text read
   at the extended reals (no rewrite was applied), so that claim is trivial. -/
import proofs.«169299_j82197084111207_1_alg».proof.Defs
import proofs.«169299_j82197084111207_1_alg».proof.Proof.Gen.Kernel
import proofs.«169299_j82197084111207_1_alg».proof.Proof.Gen.Kernel.Skeleton
import proofs.«169299_j82197084111207_1_alg».proof.Proof.Gen.Kernel.Launch
import proofs.«169299_j82197084111207_1_alg».proof.Proof.Gen.Kernel.Points
import proofs.«169299_j82197084111207_1_alg».proof.Proof.Gen.Kernel.Frame
import proofs.«169299_j82197084111207_1_alg».proof.Proof.Gen.KernelIdeal
import proofs.«169299_j82197084111207_1_alg».proof.Proof.Gen.KernelIdeal.Skeleton
import proofs.«169299_j82197084111207_1_alg».proof.Proof.Gen.KernelIdeal.Launch
import proofs.«169299_j82197084111207_1_alg».proof.Proof.Gen.KernelIdeal.Points
import proofs.«169299_j82197084111207_1_alg».proof.Proof.Gen.KernelIdeal.Frame
import proofs.«169299_j82197084111207_1_alg».proof.Proof.Gen.ReferenceIdeal
import proofs.«169299_j82197084111207_1_alg».proof.Proof.Gen.Pre_finite_inputs
import proofs.«169299_j82197084111207_1_alg».proof.Proof.Gen.ReferenceIdeal.Run
import proofs.«169299_j82197084111207_1_alg».proof.Proof.Gen.ReferenceIdeal.Read
import proofs.«169299_j82197084111207_1_alg».proof.Proof.KernelResult
import proofs.«169299_j82197084111207_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at `forwardValue` of their arguments, and the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, -, h5, h6, h7, h8⟩ := hagree c
  rw [Cert.ReferenceIdeal.Read.val_main_v37_eq, Cert.ReferenceIdeal.RefValue.result_eq, h0, h2, h3, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
